-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S262144 : Shape := ⟨1, ![262144]⟩
abbrev S1024 : Shape := ⟨1, ![1024]⟩
abbrev S1 : Shape := ⟨1, ![1]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1 : S_.BroadcastsInDim S1 (![] : Fin 0 → Fin S1.rank)
  reducesTo_S1_S_d0 : S1.ReducesTo [0] S_
  bcast_S_S4096 : S_.BroadcastsInDim S4096 (![] : Fin 0 → Fin S4096.rank)
  reducesTo_S4096_S_d0 : S4096.ReducesTo [0] S_
  bcast_S_S4096x4096 : S_.BroadcastsInDim S4096x4096 (![] : Fin 0 → Fin S4096x4096.rank)
  reducesTo_S4096x4096_S_d0_1 : S4096x4096.ReducesTo [0, 1] S_

variable [Facts]

def fn_part1 {F : FTy → Type} [FloatOps F] (main_arg1 : IVec S4096x4096 32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_c_6 : IVec S_ 32 := constantI S_ 32 0#32
  let main_v19 : IVec S4096x4096 32 := broadcastInDim S4096x4096 ![] bcast_S_S4096x4096 main_c_6
  let main_v20 : IVec S4096x4096 1 := cmpi .sge main_arg1 main_v19
  let main_c_7 : IVec S_ 1 := constantI S_ 1 1#1
  let main_v21 : IVec S_ 1 := (fun x v => Host.reduce IntOp.andi x v reducesTo_S4096x4096_S_d0_1 h_S_) main_v20 main_c_7
  let main_v22 : IVec S_ 1 := andi main_v18 main_v21
  let main_c_8 : IVec S_ 32 := constantI S_ 32 16#32
  let main_v23 : IVec S4096x4096 32 := broadcastInDim S4096x4096 ![] bcast_S_S4096x4096 main_c_8
  let main_v24 : IVec S4096x4096 1 := cmpi .slt main_arg1 main_v23
  let main_c_9 : IVec S_ 1 := constantI S_ 1 1#1
  let main_v25 : IVec S_ 1 := (fun x v => Host.reduce IntOp.andi x v reducesTo_S4096x4096_S_d0_1 h_S_) main_v24 main_c_9
  let main_v26 : IVec S_ 1 := andi main_v22 main_v25
  main_v26

def fn {F : FTy → Type} [FloatOps F] (main_arg0 : FVec F S4x2048x4096 .f32) (main_arg1 : IVec S4096x4096 32) (main_arg2 : IVec S262144 32) (main_arg3 : FVec F S1024 .f32) (main_arg4 : FVec F S1 .f32) (main_arg5 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S1024 .f32 := Host.absf main_arg3
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1 .f32 := Host.absf main_arg4
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S4096 .f32 := Host.absf main_arg5
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg1 main_v13 main_v16
-- ==== Kernel.lean ====
abbrev S4x2048x4096 : Shape := ⟨3, ![4, 2048, 4096]⟩
abbrev S4096x4096 : Shape := ⟨2, ![4096, 4096]⟩
abbrev S262144 : Shape := ⟨1, ![262144]⟩
abbrev S1024 : Shape := ⟨1, ![1024]⟩
abbrev S1 : Shape := ⟨1, ![1]⟩
abbrev S4096 : Shape := ⟨1, ![4096]⟩
abbrev S_ : Shape := ⟨0, ![]⟩
abbrev S1024x256 : Shape := ⟨2, ![1024, 256]⟩
abbrev S1024x1 : Shape := ⟨2, ![1024, 1]⟩
abbrev S4096x64 : Shape := ⟨2, ![4096, 64]⟩
abbrev S8192x4096 : Shape := ⟨2, ![8192, 4096]⟩
abbrev S1x4096 : Shape := ⟨2, ![1, 4096]⟩
abbrev S256x4096 : Shape := ⟨2, ![256, 4096]⟩
abbrev S256x64 : Shape := ⟨2, ![256, 64]⟩
abbrev S1x256 : Shape := ⟨2, ![1, 256]⟩
abbrev S256x256 : Shape := ⟨2, ![256, 256]⟩
abbrev S256x64x1 : Shape := ⟨3, ![256, 64, 1]⟩
abbrev S256x64x64 : Shape := ⟨3, ![256, 64, 64]⟩

abbrev nBuf : Space → Nat
  | .hbm => 22
  | .vmem => 10
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S262144, .i32⟩
  | .hbm, ⟨3, _⟩ => ⟨S1024, .f32⟩
  | .hbm, ⟨4, _⟩ => ⟨S1, .f32⟩
  | .hbm, ⟨5, _⟩ => ⟨S4096, .f32⟩
  | .hbm, ⟨6, _⟩ => ⟨S262144, .f32⟩
  | .hbm, ⟨7, _⟩ => ⟨S_, .f32⟩
  | .hbm, ⟨8, _⟩ => ⟨S262144, .f32⟩
  | .hbm, ⟨9, _⟩ => ⟨S262144, .f32⟩
  | .hbm, ⟨10, _⟩ => ⟨S1024x256, .f32⟩
  | .hbm, ⟨11, _⟩ => ⟨S1024x1, .f32⟩
  | .hbm, ⟨12, _⟩ => ⟨S1024x256, .f32⟩
  | .hbm, ⟨13, _⟩ => ⟨S1024x256, .f32⟩
  | .hbm, ⟨14, _⟩ => ⟨S_, .f32⟩
  | .hbm, ⟨15, _⟩ => ⟨S1024x256, .f32⟩
  | .hbm, ⟨16, _⟩ => ⟨S1024x256, .f32⟩
  | .hbm, ⟨17, _⟩ => ⟨S4096x64, .f32⟩
  | .hbm, ⟨18, _⟩ => ⟨S8192x4096, .f32⟩
  | .hbm, ⟨19, _⟩ => ⟨S1x4096, .f32⟩
  | .hbm, ⟨20, _⟩ => ⟨S8192x4096, .f32⟩
  | .hbm, ⟨21, _⟩ => ⟨S4x2048x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .i32⟩
  | .local _ .vmem, ⟨3, _⟩ => ⟨S256x4096, .i32⟩
  | .local _ .vmem, ⟨4, _⟩ => ⟨S256x64, .f32⟩
  | .local _ .vmem, ⟨5, _⟩ => ⟨S256x64, .f32⟩
  | .local _ .vmem, ⟨6, _⟩ => ⟨S1x256, .f32⟩
  | .local _ .vmem, ⟨7, _⟩ => ⟨S1x256, .f32⟩
  | .local _ .vmem, ⟨8, _⟩ => ⟨S256x256, .f32⟩
  | .local _ .vmem, ⟨9, _⟩ => ⟨S256x256, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bcast_S_S262144 : S_.BroadcastsInDim S262144 (![] : Fin 0 → Fin S262144.rank)
  shapeCasts_S262144_S1024x256 : S262144.ShapeCasts S1024x256
  bcast_S1024_S1024x1_0 : S1024.BroadcastsInDim S1024x1 (![0] : Fin 1 → Fin S1024x1.rank)
  bcast_S1024x1_S1024x256_0_1 : S1024x1.BroadcastsInDim S1024x256 (![0, 1] : Fin 2 → Fin S1024x256.rank)
  shapeCasts_S1_S_ : S1.ShapeCasts S_
  bcast_S_S1024x256 : S_.BroadcastsInDim S1024x256 (![] : Fin 0 → Fin S1024x256.rank)
  shapeCasts_S1024x256_S4096x64 : S1024x256.ShapeCasts S4096x64
  shapeCasts_S4x2048x4096_S8192x4096 : S4x2048x4096.ShapeCasts S8192x4096
  shapeCasts_S4096_S1x4096 : S4096.ShapeCasts S1x4096
  inb_S256x4096_S256x4096_0_0 : ∀ a, (![0, 0] : Fin 2 → Nat) a + S256x4096.size a ≤ S256x4096.size a
  h_S256x4096 : 0 < S256x4096.numel
  inb_S256x64_S256x64_0_0 : ∀ a, (![0, 0] : Fin 2 → Nat) a + S256x64.size a ≤ S256x64.size a
  h_S256x64 : 0 < S256x64.numel
  shapeCasts_S256x64_S256x64 : S256x64.ShapeCasts S256x64
  shapeCasts_S256x64_S256x64x1 : S256x64.ShapeCasts S256x64x1
  shapeCasts_S256x64x1_S256x64x1 : S256x64x1.ShapeCasts S256x64x1
  broadcasts_S256x64x1_S256x64x64 : S256x64x1.Broadcasts S256x64x64
  shapeCasts_S256x64x64_S256x4096 : S256x64x64.ShapeCasts S256x4096
  bitsLt_bf16_f32 : FTy.bits .bf16 < FTy.bits .f32
  shapeCasts_S256x4096_S256x4096 : S256x4096.ShapeCasts S256x4096
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  inb_S256x256_S256x256_0_0 : ∀ a, (![0, 0] : Fin 2 → Nat) a + S256x256.size a ≤ S256x256.size a
  h_S256x256 : 0 < S256x256.numel
  shapeCasts_S8192x4096_S4x2048x4096 : S8192x4096.ShapeCasts S4x2048x4096
  dot_S256x4096_S256x4096_S256x256_1_1_0_0_n_n_wf : DotDims.WF S256x4096 S256x4096 S256x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .i32 = 32 ∨ (Rect.block (s := S4096x4096) S256x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S4096x64.size a
  hwx0_2 : ∀ i : grid0.Coords, EltTy.bits .f32 = 32 ∨ (Rect.block (s := S4096x64) S256x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x4096.size a
  hwx0_3 : ∀ i : grid0.Coords, EltTy.bits .f32 = 32 ∨ (Rect.block (s := S1x4096) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S8192x4096.size a
  hwx0_4 : ∀ i : grid0.Coords, EltTy.bits .f32 = 32 ∨ (Rect.block (s := S8192x4096) S256x256.size (cc0_transform_4 i) (hinb0_4 i)).WholeWords (EltTy.packing .f32)

variable [Facts₀]

def dot_S256x4096_S256x4096_S256x256_1_1_0_0_n_n : DotDims S256x4096 S256x4096 S256x256 where
  lhsContracting := [1]
  rhsContracting := [1]
  lhsNonContracting := [0]
  rhsNonContracting := [0]
  lhsBatch := []
  rhsBatch := []
  wf := dot_S256x4096_S256x4096_S256x256_1_1_0_0_n_n_wf

abbrev win0_0 : Pipeline.Window sig grid0 :=
  Pipeline.Window.ofSpec (Memref.whole main_v11) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S256x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v13) S256x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S262144 : Shape := ⟨1, ![262144]⟩
abbrev S1024 : Shape := ⟨1, ![1024]⟩
abbrev S1 : Shape := ⟨1, ![1]⟩
abbrev S4096 : Shape := ⟨1, ![4096]⟩
abbrev S16 : Shape := ⟨1, ![16]⟩
abbrev S_ : Shape := ⟨0, ![]⟩
abbrev S1024x256 : Shape := ⟨2, ![1024, 256]⟩
abbrev S1024x1 : Shape := ⟨2, ![1024, 1]⟩
abbrev S4096x64 : Shape := ⟨2, ![4096, 64]⟩
abbrev S4096x4096x1 : Shape := ⟨3, ![4096, 4096, 1]⟩
abbrev S4096x64x64 : Shape := ⟨3, ![4096, 64, 64]⟩
abbrev S4096x64x1 : Shape := ⟨3, ![4096, 64, 1]⟩
abbrev S1x1x4096 : Shape := ⟨3, ![1, 1, 4096]⟩

abbrev nBuf : Space → Nat
  | .hbm => 37
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S262144, .i32⟩
  | .hbm, ⟨3, _⟩ => ⟨S1024, .f32⟩
  | .hbm, ⟨4, _⟩ => ⟨S1, .f32⟩
  | .hbm, ⟨5, _⟩ => ⟨S4096, .f32⟩
  | .hbm, ⟨6, _⟩ => ⟨S16, .f32⟩
  | .hbm, ⟨7, _⟩ => ⟨S262144, .f32⟩
  | .hbm, ⟨8, _⟩ => ⟨S_, .f32⟩
  | .hbm, ⟨9, _⟩ => ⟨S262144, .f32⟩
  | .hbm, ⟨10, _⟩ => ⟨S262144, .f32⟩
  | .hbm, ⟨11, _⟩ => ⟨S1024x256, .f32⟩
  | .hbm, ⟨12, _⟩ => ⟨S1024x1, .f32⟩
  | .hbm, ⟨13, _⟩ => ⟨S1024x256, .f32⟩
  | .hbm, ⟨14, _⟩ => ⟨S1024x256, .f32⟩
  | .hbm, ⟨15, _⟩ => ⟨S_, .f32⟩
  | .hbm, ⟨16, _⟩ => ⟨S1024x256, .f32⟩
  | .hbm, ⟨17, _⟩ => ⟨S1024x256, .f32⟩
  | .hbm, ⟨18, _⟩ => ⟨S4096x64, .f32⟩
  | .hbm, ⟨19, _⟩ => ⟨S_, .i32⟩
  | .hbm, ⟨20, _⟩ => ⟨S4096x4096, .i32⟩
  | .hbm, ⟨21, _⟩ => ⟨S4096x4096, .i1⟩
  | .hbm, ⟨22, _⟩ => ⟨S_, .i32⟩
  | .hbm, ⟨23, _⟩ => ⟨S4096x4096, .i32⟩
  | .hbm, ⟨24, _⟩ => ⟨S4096x4096, .i32⟩
  | .hbm, ⟨25, _⟩ => ⟨S4096x4096, .i32⟩
  | .hbm, ⟨26, _⟩ => ⟨S4096x4096x1, .i32⟩
  | .hbm, ⟨27, _⟩ => ⟨S4096x4096, .f32⟩
  | .hbm, ⟨28, _⟩ => ⟨S4096x64x64, .f32⟩
  | .hbm, ⟨29, _⟩ => ⟨S4096x64x1, .f32⟩
  | .hbm, ⟨30, _⟩ => ⟨S4096x64x64, .f32⟩
  | .hbm, ⟨31, _⟩ => ⟨S4096x64x64, .f32⟩
  | .hbm, ⟨32, _⟩ => ⟨S4096x4096, .f32⟩
  | .hbm, ⟨33, _⟩ => ⟨S4x2048x4096, .f32⟩
  | .hbm, ⟨34, _⟩ => ⟨S1x1x4096, .f32⟩
  | .hbm, ⟨35, _⟩ => ⟨S4x2048x4096, .f32⟩
  | .hbm, ⟨36, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]

class Facts₀ : Prop where
  bcast_S_S262144 : S_.BroadcastsInDim S262144 (![] : Fin 0 → Fin S262144.rank)
  shapeCasts_S262144_S1024x256 : S262144.ShapeCasts S1024x256
  bcast_S1024_S1024x1_0 : S1024.BroadcastsInDim S1024x1 (![0] : Fin 1 → Fin S1024x1.rank)
  bcast_S1024x1_S1024x256_0_1 : S1024x1.BroadcastsInDim S1024x256 (![0, 1] : Fin 2 → Fin S1024x256.rank)
  shapeCasts_S1_S_ : S1.ShapeCasts S_
  bcast_S_S1024x256 : S_.BroadcastsInDim S1024x256 (![] : Fin 0 → Fin S1024x256.rank)
  shapeCasts_S1024x256_S4096x64 : S1024x256.ShapeCasts S4096x64
  bcast_S_S4096x4096 : S_.BroadcastsInDim S4096x4096 (![] : Fin 0 → Fin S4096x4096.rank)
  bcast_S4096x4096_S4096x4096x1_0_1 : S4096x4096.BroadcastsInDim S4096x4096x1 (![0, 1] : Fin 2 → Fin S4096x4096x1.rank)
  shapeCasts_S4096x4096_S4096x64x64 : S4096x4096.ShapeCasts S4096x64x64
  bcast_S4096x64_S4096x64x1_0_1 : S4096x64.BroadcastsInDim S4096x64x1 (![0, 1] : Fin 2 → Fin S4096x64x1.rank)
  bcast_S4096x64x1_S4096x64x64_0_1_2 : S4096x64x1.BroadcastsInDim S4096x64x64 (![0, 1, 2] : Fin 3 → Fin S4096x64x64.rank)
  shapeCasts_S4096x64x64_S4096x4096 : S4096x64x64.ShapeCasts S4096x4096
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  gather_S16_S4096x4096x1_S4096x4096_n_0_n_n_0_2_1_wf : GatherDims.WF S16 S4096x4096x1 S4096x4096 [] [0] [] [0] [] 2 ![1]
  dot_S4x2048x4096_S4096x4096_S4x2048x4096_2_1_01_0_n_n_wf : DotDims.WF S4x2048x4096 S4096x4096 S4x2048x4096 [2] [1] [0, 1] [0] [] []

variable [Facts₀]

def gather_S16_S4096x4096x1_S4096x4096_n_0_n_n_0_2_1 : GatherDims S16 S4096x4096x1 S4096x4096 where
  offsetDims := []
  collapsedSliceDims := [0]
  operandBatchingDims := []
  startIndicesBatchingDims := []
  startIndexMap := [0]
  indexVectorDim := 2
  sliceSizes := ![1]
  wf := gather_S16_S4096x4096x1_S4096x4096_n_0_n_n_0_2_1_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Spec.lean ====
/-
  Four-bit normal-float weights, dequantised and multiplied: the result as one function of the arrays.

  A weight matrix `W : [4096, 4096]` is stored as one code per entry and one scale per run of 64 entries of a row:
  `W o i = level (code o i) · scale o (i / 64)`, where `level` is a table of sixteen fixed numbers. The result is
  `out b s o = Σ_i x b s i · W o i + bias o`.

  Two readings of "the level of a code" appear. One tests the code against 1, 2, …, 15 in turn and keeps the last match,
  starting from the level of 0 (`pick`); it gives the level of 0 to every word outside 1 … 15. The other indexes the table
  the way an array is indexed: a negative index counts from the end (16 is added), and the index is then clamped into
  0 … 15 (`look`). For a code in 0 … 15 the two agree (`pick_eq_look`); outside they need not (the code −1 is read as
  the level of 0 by the first and of 15 by the second), which is why the statement restricts the codes to 0 … 15.
-/
import Idealize.ShloMosaic.PureOps.Ideal
import Idealize.ShloMosaic.Lib.ValueIdx

noncomputable section

open scoped BigOperators

namespace Cert.Nf4

open Idealize.ShloMosaic Idealize.ShloMosaic.ValueIdx

/-- The sixteen levels, as single-precision words, in table order. -/
abbrev level : Fin 16 → BitVec 32 := fun
  | 0 => 0xBF800000#32 | 1 => 0xBF3239B1#32 | 2 => 0xBF066B30#32 | 3 => 0xBECA32A0#32 | 4 => 0xBE91A24D#32 | 5 => 0xBE3D353F#32 | 6 => 0xBDBA7871#32 | 7 => 0x00000000#32
  | 8 => 0x3DA2FAFF#32 | 9 => 0x3E24CAE3#32 | 10 => 0x3E7C04DD#32 | 11 => 0x3EAD033A#32 | 12 => 0x3EE1A4B8#32 | 13 => 0x3F1007AB#32 | 14 => 0x3F3913B3#32 | 15 => 0x3F800000#32
  | _ => 0#32

/-- The level a code selects by fifteen equality tests, the last match winning and the level of 0 standing when none
    matches. -/
def pick (c : BitVec 32) : EReal :=
  Scalar.select (IntOp.cmpi .eq c 15#32) (Ideal.ofBits .f32 0x3F800000#32) <|
  Scalar.select (IntOp.cmpi .eq c 14#32) (Ideal.ofBits .f32 0x3F3913B3#32) <|
  Scalar.select (IntOp.cmpi .eq c 13#32) (Ideal.ofBits .f32 0x3F1007AB#32) <|
  Scalar.select (IntOp.cmpi .eq c 12#32) (Ideal.ofBits .f32 0x3EE1A4B8#32) <|
  Scalar.select (IntOp.cmpi .eq c 11#32) (Ideal.ofBits .f32 0x3EAD033A#32) <|
  Scalar.select (IntOp.cmpi .eq c 10#32) (Ideal.ofBits .f32 0x3E7C04DD#32) <|
  Scalar.select (IntOp.cmpi .eq c 9#32) (Ideal.ofBits .f32 0x3E24CAE3#32) <|
  Scalar.select (IntOp.cmpi .eq c 8#32) (Ideal.ofBits .f32 0x3DA2FAFF#32) <|
  Scalar.select (IntOp.cmpi .eq c 7#32) (Ideal.ofBits .f32 0x00000000#32) <|
  Scalar.select (IntOp.cmpi .eq c 6#32) (Ideal.ofBits .f32 0xBDBA7871#32) <|
  Scalar.select (IntOp.cmpi .eq c 5#32) (Ideal.ofBits .f32 0xBE3D353F#32) <|
  Scalar.select (IntOp.cmpi .eq c 4#32) (Ideal.ofBits .f32 0xBE91A24D#32) <|
  Scalar.select (IntOp.cmpi .eq c 3#32) (Ideal.ofBits .f32 0xBECA32A0#32) <|
  Scalar.select (IntOp.cmpi .eq c 2#32) (Ideal.ofBits .f32 0xBF066B30#32) <|
  Scalar.select (IntOp.cmpi .eq c 1#32) (Ideal.ofBits .f32 0xBF3239B1#32) <|
  Ideal.ofBits .f32 0xBF800000#32

/-- An array index as numpy reads it: a negative one counts from the end of the sixteen entries. -/
def wrap (c : BitVec 32) : BitVec 32 := Scalar.select (IntOp.cmpi .slt c 0#32) (IntOp.addi c 16#32) c

/-- The table entry a signed word names once it is clamped into 0 … 15. -/
def entry (c : BitVec 32) : Fin 16 := ⟨min c.toInt.toNat (16 - 1), by omega⟩

/-- The level a code selects by indexing the table: wrapped, then clamped. -/
def look (c : BitVec 32) : EReal := Ideal.ofBits .f32 (level (entry (wrap c)))

/-- A word that is at least 0 and below 16 as a signed number is one of the sixteen small words. -/
theorem small_of_range (c : BitVec 32) (h0 : IntOp.cmpi .sge c 0#32 = 1#1) (h1 : IntOp.cmpi .slt c 16#32 = 1#1) :
    ∃ n : Fin 16, c = BitVec.ofNat 32 n.val := by
  have h0' : (0#32).sle c = true := by
    have := h0; unfold IntOp.cmpi at this; revert this; cases (0#32).sle c <;> simp
  have h1' : c.slt 16#32 = true := by
    have := h1; unfold IntOp.cmpi at this; revert this; cases c.slt 16#32 <;> simp
  rw [BitVec.sle, decide_eq_true_eq] at h0'
  rw [BitVec.slt, decide_eq_true_eq] at h1'
  have e0 : (0#32 : BitVec 32).toInt = 0 := by decide
  have e16 : (16#32 : BitVec 32).toInt = 16 := by decide
  rw [e0] at h0'; rw [e16] at h1'
  have hc : c.toInt = c.toNat := by
    rw [BitVec.toInt_eq_toNat_cond] at h0' h1' ⊢
    have := c.isLt
    split_ifs at h0' h1' ⊢ <;> omega
  refine ⟨⟨c.toNat, by omega⟩, ?_⟩
  simp

/-- On the sixteen codes the two readings agree. -/
theorem pick_eq_look_small (n : Fin 16) : pick (BitVec.ofNat 32 n.val) = look (BitVec.ofNat 32 n.val) := by
  fin_cases n <;> rfl

/-- For a code in 0 … 15 (as a signed word) the chain of tests and the table lookup give the same level. -/
theorem pick_eq_look (c : BitVec 32) (h0 : IntOp.cmpi .sge c 0#32 = 1#1) (h1 : IntOp.cmpi .slt c 16#32 = 1#1) :
    pick c = look c := by
  obtain ⟨n, rfl⟩ := small_of_range c h0 h1
  exact pick_eq_look_small n

/-! ## The result, entry by entry -/

/-- One dequantised weight, for a given reading `lev` of a code: the level of the code at `(o, i)` times the scale of
    the run of 64 entries of row `o` that holds `i`. -/
def weight (lev : BitVec 32 → EReal) (codes : IVec ⟨2, ![4096, 4096]⟩ 32)
    (scale : (⟨2, ![4096, 64]⟩ : Shape).Idx → EReal) (o i : Fin 4096) : EReal :=
  lev (codes (ix2 o i)) * scale (ix2 o ⟨i.val / 64, by omega⟩)

/-- The result at `(b, s, o)`: row `(b, s)` of `x` against row `o` of the dequantised weights, plus the bias at `o`. -/
def outAt (lev : BitVec 32 → EReal) (x : (⟨3, ![4, 2048, 4096]⟩ : Shape).Idx → EReal)
    (codes : IVec ⟨2, ![4096, 4096]⟩ 32) (scale : (⟨2, ![4096, 64]⟩ : Shape).Idx → EReal)
    (bias : (⟨1, ![4096]⟩ : Shape).Idx → EReal) (b : Fin 4) (s : Fin 2048) (o : Fin 4096) : EReal :=
  (∑ i : Fin 4096, x (ix3 b s i) * weight lev codes scale o i) + bias (ix1 o)

/-- The whole result array. -/
def out (lev : BitVec 32 → EReal) (x : (⟨3, ![4, 2048, 4096]⟩ : Shape).Idx → EReal)
    (codes : IVec ⟨2, ![4096, 4096]⟩ 32) (scale : (⟨2, ![4096, 64]⟩ : Shape).Idx → EReal)
    (bias : (⟨1, ![4096]⟩ : Shape).Idx → EReal) : (⟨3, ![4, 2048, 4096]⟩ : Shape).Idx → EReal :=
  fun j => outAt lev x codes scale bias (j 0) (j 1) (j 2)

/-- Two readings of the codes that agree on every code of the matrix give the same result. -/
theorem out_congr (lev lev' : BitVec 32 → EReal) (x : (⟨3, ![4, 2048, 4096]⟩ : Shape).Idx → EReal)
    (codes : IVec ⟨2, ![4096, 4096]⟩ 32) (scale : (⟨2, ![4096, 64]⟩ : Shape).Idx → EReal)
    (bias : (⟨1, ![4096]⟩ : Shape).Idx → EReal) (h : ∀ o i : Fin 4096, lev (codes (ix2 o i)) = lev' (codes (ix2 o i))) :
    out lev x codes scale bias = out lev' x codes scale bias := by
  have at_eq : ∀ (b : Fin 4) (s : Fin 2048) (o : Fin 4096),
      outAt lev x codes scale bias b s o = outAt lev' x codes scale bias b s o := by
    intro b s o
    unfold outAt weight
    simp only [h]
  funext j
  exact at_eq (j 0) (j 1) (j 2)

end Cert.Nf4

end
-- ==== Proof.KPay.lean ====
/-
  One block of the result, entry by entry.

  The body of the kernel takes a block of 256 rows of `x`, a block of 256 rows of codes with their 256 × 64 scales, and 256
  entries of the bias, and stores a 256 × 256 block. Its entry `(p, q)` is the sum over the 4096 columns `k` of
  `x p k · (pick (code q k) · scale q (k / 64))`, plus the bias at `q`: the codes are read through the chain of fifteen
  equality tests (`Cert.Nf4.pick`), the scales are spread over runs of 64 columns by a broadcast between two regroupings,
  the product is a contraction of the second axis of both operands, and a change of float format is the identity on the
  extended reals.
-/
import proofs.«422531_j81406810128701_1_alg».proof.Proof.Gen.KernelIdeal.Skeleton
import proofs.«422531_j81406810128701_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.KValue

open Cert.KernelIdeal Cert.KernelIdeal.Gen Idealize.ShloMosaic Idealize.ShloMosaic.ValueIdx

/-! ## The scales spread over runs of 64 columns, and the bias row -/

/-- A 256 × 64 array regrouped as 256 × 64 × 1, repeated 64 times along the last axis and regrouped as 256 × 4096,
    holds at column `k` of row `q` the entry `k / 64` of row `q`. -/
theorem spread_apply (am : FVec Ideal S256x64 .f32) (q : Fin 256) (k : Fin 4096) :
    shapeCast S256x4096 (broadcastTo S256x64x64 (shapeCast S256x64x1 (shapeCast S256x64x1 (shapeCast S256x64 am
      shapeCasts_S256x64_S256x64) shapeCasts_S256x64_S256x64x1) shapeCasts_S256x64x1_S256x64x1) broadcasts_S256x64x1_S256x64x64)
      shapeCasts_S256x64x64_S256x4096 (ix2 q k) = am (ix2 q ⟨k.val / 64, by omega⟩) := by
  rw [shapeCast_self am, shapeCast_self]
  refine (shapeCast_apply _ _ (ix2 q k) (ix3 q (⟨k.val / 64, by omega⟩ : Fin 64) (⟨k.val % 64, by omega⟩ : Fin 64)) ?_).trans ?_
  · rw [Shape.rowMajor_val_three, Shape.rowMajor_val_two]
    show (q.val * 64 + k.val / 64) * 64 + k.val % 64 = q.val * 4096 + k.val
    omega
  refine (broadcastTo_apply _ _ _ (ix3 q (⟨k.val / 64, by omega⟩ : Fin 64) (0 : Fin 1)) fun a => ?_).trans ?_
  · match a with
    | ⟨0, _⟩ => rfl
    | ⟨1, _⟩ => rfl
    | ⟨2, _⟩ => rfl
  refine shapeCast_apply _ _ _ (ix2 q (⟨k.val / 64, by omega⟩ : Fin 64)) ?_
  rw [Shape.rowMajor_val_three, Shape.rowMajor_val_two]
  show q.val * 64 + k.val / 64 = (q.val * 64 + k.val / 64) * 1 + 0
  omega

/-- One row of 256 entries repeated over 256 rows holds at `(p, q)` the row's entry `q`. -/
theorem biasRow_apply (b : FVec Ideal S1x256 .f32) (p q : Fin 256) :
    broadcastTo S256x256 (shapeCast S1x256 b shapeCasts_S1x256_S1x256) broadcasts_S1x256_S256x256 (ix2 p q)
      = b (ix2 (0 : Fin 1) q) := by
  rw [shapeCast_self]
  exact broadcastTo_1b_ab_apply b _ p q

/-! ## The contraction: both operands' second axis against one index of 4096 -/

theorem lhs_axis0 (j : S256x256.Idx) (k : dot_S256x4096_S256x4096_S256x256_1_1_0_0_n_n.contr.Idx) :
    (dot_S256x4096_S256x4096_S256x256_1_1_0_0_n_n.lhsIdx j k 0 : ℕ) = j 0 := by
  simp [DotDims.lhsIdx, dot_S256x4096_S256x4096_S256x256_1_1_0_0_n_n]; rfl
theorem lhs_axis1 (j : S256x256.Idx) (k : dot_S256x4096_S256x4096_S256x256_1_1_0_0_n_n.contr.Idx) :
    (dot_S256x4096_S256x4096_S256x256_1_1_0_0_n_n.lhsIdx j k 1 : ℕ) = k ⟨0, by decide⟩ := by
  simp [DotDims.lhsIdx, dot_S256x4096_S256x4096_S256x256_1_1_0_0_n_n]; rfl
theorem rhs_axis0 (j : S256x256.Idx) (k : dot_S256x4096_S256x4096_S256x256_1_1_0_0_n_n.contr.Idx) :
    (dot_S256x4096_S256x4096_S256x256_1_1_0_0_n_n.rhsIdx j k 0 : ℕ) = j 1 := by
  simp [DotDims.rhsIdx, dot_S256x4096_S256x4096_S256x256_1_1_0_0_n_n]; rfl
theorem rhs_axis1 (j : S256x256.Idx) (k : dot_S256x4096_S256x4096_S256x256_1_1_0_0_n_n.contr.Idx) :
    (dot_S256x4096_S256x4096_S256x256_1_1_0_0_n_n.rhsIdx j k 1 : ℕ) = k ⟨0, by decide⟩ := by
  simp [DotDims.rhsIdx, dot_S256x4096_S256x4096_S256x256_1_1_0_0_n_n]; rfl

/-- The contraction of the two second axes, read at entry `(p, q)`, as a sum over the 4096 columns. -/
theorem contr_sum (L R : S256x4096.Idx → EReal) (p q : Fin 256) :
    (∑ k : dot_S256x4096_S256x4096_S256x256_1_1_0_0_n_n.contr.Idx, L (dot_S256x4096_S256x4096_S256x256_1_1_0_0_n_n.lhsIdx (ix2 p q) k) * R (dot_S256x4096_S256x4096_S256x256_1_1_0_0_n_n.rhsIdx (ix2 p q) k))
      = ∑ i : Fin 4096, L (ix2 p i) * R (ix2 q i) := by
  rw [← Equiv.sum_comp (contrEquiv1 dot_S256x4096_S256x4096_S256x256_1_1_0_0_n_n 4096 rfl rfl).symm]
  refine Finset.sum_congr rfl fun i _ => ?_
  have hl : dot_S256x4096_S256x4096_S256x256_1_1_0_0_n_n.lhsIdx (ix2 p q) ((contrEquiv1 dot_S256x4096_S256x4096_S256x256_1_1_0_0_n_n 4096 rfl rfl).symm i) = ix2 p i := by
    funext a
    match a with
    | ⟨0, _⟩ => exact Fin.ext (lhs_axis0 _ _)
    | ⟨1, _⟩ => exact Fin.ext ((lhs_axis1 _ _).trans (contrEquiv1_symm_val _ _ _ _ i))
  have hr : dot_S256x4096_S256x4096_S256x256_1_1_0_0_n_n.rhsIdx (ix2 p q) ((contrEquiv1 dot_S256x4096_S256x4096_S256x256_1_1_0_0_n_n 4096 rfl rfl).symm i) = ix2 q i := by
    funext a
    match a with
    | ⟨0, _⟩ => exact Fin.ext (rhs_axis0 _ _)
    | ⟨1, _⟩ => exact Fin.ext ((rhs_axis1 _ _).trans (contrEquiv1_symm_val _ _ _ _ i))
  rw [hl, hr]

/-! ## The block's entry -/

/-- Entry `(p, q)` of the stored block: row `p` of the block of `x` against row `q` of the dequantised block of weights,
    plus the bias at `q`. -/
theorem pay_apply (codes : Vec Ideal S256x4096 .i32) (am : Vec Ideal S256x64 .f32) (x : Vec Ideal S256x4096 .f32)
    (b : Vec Ideal S1x256 .f32) (p q : Fin 256) :
    k0_pay4 codes (k0_pay1 codes) (k0_pay2 codes) (k0_pay3 (F := Ideal)) am x b (ix2 p q)
      = (∑ k : Fin 4096, x (ix2 p k) * (Cert.Nf4.pick (codes (ix2 q k)) * am (ix2 q ⟨k.val / 64, by omega⟩)))
        + b (ix2 (0 : Fin 1) q) := by
  unfold k0_pay4
  refine (addf_apply _ _ _).trans ?_
  rw [biasRow_apply]
  refine congrArg (· + b (ix2 (0 : Fin 1) q)) ?_
  refine (Ideal.matmul_constant_zero_apply dot_S256x4096_S256x4096_S256x256_1_1_0_0_n_n none _ _ (ix2 p q)).trans ?_
  refine (contr_sum _ _ p q).trans ?_
  refine Finset.sum_congr rfl fun k _ => ?_
  rw [truncf_apply, truncf_apply, shapeCast_self, mulf_apply, spread_apply]
  rfl

end Cert.KernelIdeal.KValue

end
-- ==== Proof.KBlocks.lean ====
/-
  From blocks to the array.

  The grid has 32 × 16 points; point `t` takes rows `256·(t / 16) …` of `x` and rows `256·(t % 16) …` of the codes, of the
  scales and of the bias row, and writes the 256 × 256 block of the result at block position `(t / 16, t % 16)`. Every block
  is the restriction of ONE function of the whole arrays (`rowAt`: a row of `x` against a row of dequantised weights, plus
  the bias), and the 512 blocks tile the 8192 × 4096 result, so the array ends holding that function.
-/
import proofs.«422531_j81406810128701_1_alg».proof.Proof.Gen.KernelIdeal.Frame
import proofs.«422531_j81406810128701_1_alg».proof.Proof.KPay
import Idealize.ShloMosaic.Lib.Pipeline.Value

set_option maxRecDepth 16384

noncomputable section

open scoped BigOperators

namespace Cert.KernelIdeal.KValue

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ) (ρ : Dev nD → PrngReg)

/-- Entry `(r, o)` of the two-dimensional result: row `r` of `X` against row `o` of the dequantised weights, plus the
    bias at `o`. -/
def rowAt (X : S8192x4096.Idx → EReal) (C : S4096x4096.Idx → BitVec 32) (A : S4096x64.Idx → EReal)
    (B : S1x4096.Idx → EReal) (r : Fin 8192) (o : Fin 4096) : EReal :=
  (∑ k : Fin 4096, X (ix2 r k) * (Cert.Nf4.pick (C (ix2 o k)) * A (ix2 o ⟨k.val / 64, by omega⟩))) + B (ix2 (0 : Fin 1) o)

/-- The two-dimensional result as one array. -/
def rows (X : S8192x4096.Idx → EReal) (C : S4096x4096.Idx → BitVec 32) (A : S4096x64.Idx → EReal)
    (B : S1x4096.Idx → EReal) : S8192x4096.Idx → EReal :=
  fun i => rowAt X C A B (i 0) (i 1)

theorem hz : (![0, 0] : Fin 2 → Nat) = fun _ => 0 := funext fun a => by fin_cases a <;> rfl

/-- The block positions of the five windows at a grid point, decided over the 512 points: the rows of `x` follow the
    result's block row, the codes, the scales and the bias follow its block column, and every window starts at 0 on the
    axis it takes whole. -/
theorem idx_facts : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = win0_4.index t (1 : Fin 2) ∧ win0_2.index t (1 : Fin 2) = 0
    ∧ win0_3.index t (0 : Fin 2) = 0 ∧ win0_3.index t (1 : Fin 2) = win0_4.index t (1 : Fin 2)
    ∧ win0_4.index t (0 : Fin 2) = t.val / 16 ∧ win0_4.index t (1 : Fin 2) = t.val % 16 :=
  (by decide +kernel : ∀ t : Fin grid0.N, _)

/-- Entry `(p, q)` of what the body stores at point `t` is entry `(r, o)` of `rows`, where `(r, o)` is the place of `(p, q)`
    in the result: each input block is read where the result's block position says. -/
theorem block_entry (c : Dev nD) (t : Fin cfg0.N) (p q : Fin 256) (r : Fin 8192) (o : Fin 4096)
    (hr : r.val = win0_4.index t (0 : Fin 2) * 256 + p.val) (ho : o.val = win0_4.index t (1 : Fin 2) * 256 + q.val) :
    k0_pay4 (iblk m c 1 t) (k0_pay1 (iblk m c 1 t)) (k0_pay2 (iblk m c 1 t)) (k0_pay3 (F := Ideal)) (iblk m c 2 t)
        (iblk m c 0 t) (iblk m c 3 t) (ix2 p q)
      = rowAt (V m c main_v11) (V m c main_arg1) (V m c main_v10) (V m c main_v12) r o := by
  obtain ⟨e00, e01, e10, e11, e20, e21, e30, e31, e40, e41⟩ := idx_facts t
  refine (pay_apply (iblk m c 1 t) (iblk m c 2 t) (iblk m c 0 t) (iblk m c 3 t) p q).trans ?_
  unfold rowAt
  have hx : ∀ k : Fin 4096, iblk m c 0 t (ix2 p k) = V m c main_v11 (ix2 r k) := fun k => by
    show V m c main_v11 (((cfg0.win 0).blk t).view.emb (ix2 p k)) = V m c main_v11 (ix2 r k)
    refine congrArg _ (funext fun a => Fin.ext ?_)
    match a with
    | ⟨0, _⟩ => show win0_0.index t (0 : Fin 2) * 256 + 1 * p.val = r.val; omega
    | ⟨1, _⟩ => show win0_0.index t (1 : Fin 2) * 4096 + 1 * k.val = k.val; omega
  have hc : ∀ k : Fin 4096, iblk m c 1 t (ix2 q k) = V m c main_arg1 (ix2 o k) := fun k => by
    show V m c main_arg1 (((cfg0.win 1).blk t).view.emb (ix2 q k)) = V m c main_arg1 (ix2 o k)
    refine congrArg _ (funext fun a => Fin.ext ?_)
    match a with
    | ⟨0, _⟩ => show win0_1.index t (0 : Fin 2) * 256 + 1 * q.val = o.val; omega
    | ⟨1, _⟩ => show win0_1.index t (1 : Fin 2) * 4096 + 1 * k.val = k.val; omega
  have ha : ∀ g : Fin 64, iblk m c 2 t (ix2 q g) = V m c main_v10 (ix2 o g) := fun g => by
    show V m c main_v10 (((cfg0.win 2).blk t).view.emb (ix2 q g)) = V m c main_v10 (ix2 o g)
    refine congrArg _ (funext fun a => Fin.ext ?_)
    match a with
    | ⟨0, _⟩ => show win0_2.index t (0 : Fin 2) * 256 + 1 * q.val = o.val; omega
    | ⟨1, _⟩ => show win0_2.index t (1 : Fin 2) * 64 + 1 * g.val = g.val; omega
  have hb : iblk m c 3 t (ix2 (0 : Fin 1) q) = V m c main_v12 (ix2 (0 : Fin 1) o) := by
    show V m c main_v12 (((cfg0.win 3).blk t).view.emb (ix2 (0 : Fin 1) q)) = V m c main_v12 (ix2 (0 : Fin 1) o)
    refine congrArg _ (funext fun a => Fin.ext ?_)
    match a with
    | ⟨0, _⟩ => show win0_3.index t (0 : Fin 2) * 1 + 1 * 0 = 0; omega
    | ⟨1, _⟩ => show win0_3.index t (1 : Fin 2) * 256 + 1 * q.val = o.val; omega
  rw [hb]
  refine congrArg (· + V m c main_v12 (ix2 (0 : Fin 1) o)) (Finset.sum_congr rfl fun k _ => ?_)
  rw [hx k, hc k, ha]

/-- What point `t` writes back is its block of `rows` of the arrays as the region finds them. -/
theorem flushed_eq (c : Dev nD) (t : Fin cfg0.N) :
    (dats m 0 c).flushed 4 t = ((cfg0.win 4).blk t).view.read (Elt Ideal)
      (rows (V m c main_v11) (V m c main_arg1) (V m c main_v10) (V m c main_v12)) := by
  show (cfg0.win 4).cut (grid0.coords t) ((dats m 0 c).after 4 t) = _
  rw [after0_4]
  unfold out0_4
  rw [View.canon_unit_zero hz]
  simp only [View.ld_unit_zero (S := S256x4096) hz, View.ld_unit_zero (S := S256x64) hz, View.ld_unit_zero (S := S1x256) hz]
  funext j
  obtain ⟨p, q, rfl⟩ : ∃ (p q : Fin 256), j = ix2 p q := ⟨j 0, j 1, eq_ix2 j⟩
  show _ = rowAt _ _ _ _ (((cfg0.win 4).blk t).view.emb (ix2 p q) 0) (((cfg0.win 4).blk t).view.emb (ix2 p q) 1)
  refine block_entry m c t p q _ _ ?_ ?_
  · show win0_4.index t (0 : Fin 2) * 256 + 1 * p.val = _; omega
  · show win0_4.index t (1 : Fin 2) * 256 + 1 * q.val = _; omega

/-- An index of the result is in point `t`'s block iff each coordinate is in the block's range on its axis. -/
theorem mem_blk (t : Fin cfg0.N) (i : S8192x4096.Idx) :
    i ∈ ((cfg0.win 4).blk t).view.set ↔ ∀ a : Fin 2, win0_4.index t a * S256x256.size a ≤ (i a).val
      ∧ (i a).val < win0_4.index t a * S256x256.size a + S256x256.size a := by
  show i ∈ ((View.whole main_v13).slice (win0_4.rect t)).set ↔ _
  rw [View.set_slice_whole, Rect.mem_set_unit]
  exact Iff.rfl

/-- Every index of the result is in the block of the point at block position `(i 0 / 256, i 1 / 256)`. -/
theorem cover (i : S8192x4096.Idx) :
    ∃ t : Fin cfg0.N, (cfg0.win 4).flush t = true ∧ i ∈ ((cfg0.win 4).blk t).view.set := by
  have hi0 : (i 0).val < 8192 := (i 0).isLt
  have hi1 : (i 1).val < 4096 := (i 1).isLt
  have hN : (i 0).val / 256 * 16 + (i 1).val / 256 < cfg0.N := by
    show _ < grid0.N
    rw [N_0]; omega
  obtain ⟨-, -, -, -, -, -, -, -, e40, e41⟩ := idx_facts ⟨(i 0).val / 256 * 16 + (i 1).val / 256, hN⟩
  refine ⟨⟨(i 0).val / 256 * 16 + (i 1).val / 256, hN⟩, flush0_4 _, ?_⟩
  rw [mem_blk]
  intro a
  match a with
  | ⟨0, _⟩ =>
    show win0_4.index ⟨(i 0).val / 256 * 16 + (i 1).val / 256, hN⟩ (0 : Fin 2) * 256 ≤ (i 0).val
      ∧ (i 0).val < win0_4.index ⟨(i 0).val / 256 * 16 + (i 1).val / 256, hN⟩ (0 : Fin 2) * 256 + 256
    rw [e40]
    show ((i 0).val / 256 * 16 + (i 1).val / 256) / 16 * 256 ≤ (i 0).val
      ∧ (i 0).val < ((i 0).val / 256 * 16 + (i 1).val / 256) / 16 * 256 + 256
    omega
  | ⟨1, _⟩ =>
    show win0_4.index ⟨(i 0).val / 256 * 16 + (i 1).val / 256, hN⟩ (1 : Fin 2) * 256 ≤ (i 1).val
      ∧ (i 1).val < win0_4.index ⟨(i 0).val / 256 * 16 + (i 1).val / 256, hN⟩ (1 : Fin 2) * 256 + 256
    rw [e41]
    show ((i 0).val / 256 * 16 + (i 1).val / 256) % 16 * 256 ≤ (i 1).val
      ∧ (i 1).val < ((i 0).val / 256 * 16 + (i 1).val / 256) % 16 * 256 + 256
    omega

/-- The result array after the run: `rows` of the arrays as the region finds them. -/
theorem final (c : Dev nD) :
    (dats m 0 c).arrAt 4 cfg0.N = rows (V m c main_v11) (V m c main_arg1) (V m c main_v10) (V m c main_v12) :=
  (dats m 0 c).arrAt_eq_of_cover 4 _ (fun t _ => flushed_eq m c t) cover

end Cert.KernelIdeal.KValue

end
-- ==== Proof.KRun.lean ====
/-
  The kernel's run, read as one array.

  Before the region the program regroups `x` as 8192 rows, the bias as one row, and computes the scales from their codes;
  after it, it regroups the 8192 × 4096 result as 4 × 2048 × 4096. Row `2048·b + s` of the regrouped `x` is row `(b, s)` of `x`,
  so the result at `(b, s, o)` is row `(b, s)` of `x` against row `o` of the dequantised weights, plus the bias at `o`.
-/
import proofs.«422531_j81406810128701_1_alg».proof.Proof.KBlocks
import Idealize.ShloMosaic.Lib.StableHlo.Run

set_option maxRecDepth 16384

noncomputable section

open scoped BigOperators

namespace Cert.KernelIdeal.KValue

open Cert.KernelIdeal Cert.KernelIdeal.Gen Idealize.ShloMosaic Idealize.ShloMosaic.TcCoe Idealize.ShloMosaic.ValueIdx
open Idealize.SL.Sem
open Idealize.ShloMosaic.Pipeline (Dat Cfg Window)

/-- The scale array: the program's first operations composed (the codes of the scales converted, divided by 255,
    regrouped in runs of 256, multiplied by the per-run factor, shifted by the offset, regrouped as [4096, 64]). -/
def scale (amc : IVec S262144 32) (sc : FVec Ideal S1024 .f32) (off : FVec Ideal S1 .f32) : FVec Ideal S4096x64 .f32 :=
  shapeCast S4096x64
    (addf
      (mulf
        (shapeCast S1024x256
          (Host.divf (F := Ideal) (sitofp (F := Ideal) .f32 amc)
            (broadcastInDim S262144 ![] bcast_S_S262144 (constant (F := Ideal) S_ .f32 0x437F0000#32)))
          shapeCasts_S262144_S1024x256)
        (broadcastInDim S1024x256 ![0, 1] bcast_S1024x1_S1024x256_0_1
          (broadcastInDim S1024x1 ![0] bcast_S1024_S1024x1_0 sc)))
      (broadcastInDim S1024x256 ![] bcast_S_S1024x256 (shapeCast S_ off shapeCasts_S1_S_)))
    shapeCasts_S1024x256_S4096x64

/-! ## Folding the rows back -/

/-- The 8192 × 4096 result regrouped as 4 × 2048 × 4096, over the regrouped `x` and the bias as one row, is the
    specification's array. -/
theorem fold_rows (x : S4x2048x4096.Idx → EReal) (C : S4096x4096.Idx → BitVec 32) (A : S4096x64.Idx → EReal)
    (bias : S4096.Idx → EReal) :
    shapeCast S4x2048x4096 (rows (shapeCast S8192x4096 x shapeCasts_S4x2048x4096_S8192x4096) C A
        (shapeCast S1x4096 bias shapeCasts_S4096_S1x4096)) shapeCasts_S8192x4096_S4x2048x4096
      = Cert.Nf4.out Cert.Nf4.pick x C A bias := by
  funext j
  obtain ⟨b, s, o, rfl⟩ : ∃ (b : Fin 4) (s : Fin 2048) (o : Fin 4096), j = ix3 b s o := ⟨j 0, j 1, j 2, eq_ix3 j⟩
  refine (shapeCast_apply _ _ (ix3 b s o) (ix2 (⟨b.val * 2048 + s.val, by omega⟩ : Fin 8192) o) ?_).trans ?_
  · rw [Shape.rowMajor_val_two, Shape.rowMajor_val_three]
    show (b.val * 2048 + s.val) * 4096 + o.val = (b.val * 2048 + s.val) * 4096 + o.val
    rfl
  show rowAt _ C A _ (⟨b.val * 2048 + s.val, by omega⟩ : Fin 8192) o = Cert.Nf4.outAt Cert.Nf4.pick x C A bias b s o
  unfold rowAt Cert.Nf4.outAt Cert.Nf4.weight
  have hx : ∀ k : Fin 4096, shapeCast S8192x4096 x shapeCasts_S4x2048x4096_S8192x4096
      (ix2 (⟨b.val * 2048 + s.val, by omega⟩ : Fin 8192) k) = x (ix3 b s k) := fun k =>
    shapeCast_apply x _ _ (ix3 b s k) (by
      rw [Shape.rowMajor_val_two, Shape.rowMajor_val_three]
      show (b.val * 2048 + s.val) * 4096 + k.val = (b.val * 2048 + s.val) * 4096 + k.val
      rfl)
  have hb : shapeCast S1x4096 bias shapeCasts_S4096_S1x4096 (ix2 (0 : Fin 1) o) = bias (ix1 o) :=
    shapeCast_apply bias _ _ (ix1 o) (by
      rw [Shape.rowMajor_val_two, Shape.rowMajor_val_one]
      show o.val = 0 * 4096 + o.val
      omega)
  rw [hb]
  refine congrArg (· + bias (ix1 o)) (Finset.sum_congr rfl fun k _ => ?_)
  rw [hx k]

variable (m : (ℓ : Loc nD τ sig) → Buf (Elt Ideal) ℓ) (ρ : Dev nD → PrngReg)

/-! ## The arrays the region finds -/

theorem V_x (c : Dev nD) : V m c main_v11
    = shapeCast S8192x4096 (m ((c.tc : Thread nD τ).loc main_arg0)) shapeCasts_S4x2048x4096_S8192x4096 := by
  show StableHlo.after hostOps0 (fun b => m (c, b)) (Proc.devRef .tc main_v11) = _
  after_results
  rfl

theorem V_bias (c : Dev nD) : V m c main_v12
    = shapeCast S1x4096 (m ((c.tc : Thread nD τ).loc main_arg5)) shapeCasts_S4096_S1x4096 := by
  show StableHlo.after hostOps0 (fun b => m (c, b)) (Proc.devRef .tc main_v12) = _
  after_results
  rfl

theorem V_scale (c : Dev nD) : V m c main_v10
    = scale (m ((c.tc : Thread nD τ).loc main_arg2)) (m ((c.tc : Thread nD τ).loc main_arg3))
        (m ((c.tc : Thread nD τ).loc main_arg4)) := by
  show StableHlo.after hostOps0 (fun b => m (c, b)) (Proc.devRef .tc main_v10) = _
  after_results
  rfl

/-! ## After the region -/

/-- The result buffer after the last regrouping: the region's output array, regrouped. -/
theorem tail_eq (c : Dev nD) :
    Pipeline.afterTail₀ cfgs (dats m) 0 (V0 m) [hostOps1] c main_v14
      = shapeCast S4x2048x4096 ((dats m 0 c).arrAt 4 cfg0.N) shapeCasts_S8192x4096_S4x2048x4096 := by
  unfold Pipeline.afterTail₀
  show StableHlo.after hostOps1 _ (Proc.devRef .tc main_v14) = _
  after_results
  have e : Pipeline.withArrays (cfgs 0).spec c (V0 m c) (fun w => (dats m 0 c).arrAt w (cfgs 0).N)
      (Proc.devRef .tc main_v13) = (dats m 0 c).arrAt 4 cfg0.N :=
    Pipeline.withArrays_arr spec0 launch0.win.arr_inj c _ _ 4
  rw [e]
  rfl

/-- The result buffer after the run is the specification's array of the launch contents. -/
theorem result_eq (c : Dev nD) :
    Pipeline.afterTail₀ cfgs (dats m) 0 (V0 m) [hostOps1] c main_v14
      = Cert.Nf4.out Cert.Nf4.pick (m ((c.tc : Thread nD τ).loc main_arg0)) (m ((c.tc : Thread nD τ).loc main_arg1))
          (scale (m ((c.tc : Thread nD τ).loc main_arg2)) (m ((c.tc : Thread nD τ).loc main_arg3))
            (m ((c.tc : Thread nD τ).loc main_arg4)))
          (m ((c.tc : Thread nD τ).loc main_arg5)) := by
  rw [tail_eq, final, V_x, V_bias, V_scale, V_main_arg1]
  exact fold_rows _ _ _ _

/-! ## The run -/

/-- Every run of the program ends with the result buffer at the specification's array and the arguments unchanged. -/
theorem run : θ_run defs (onTc (τ := τ) (main (F := Ideal))) ⟨m, fun _ => 0, ρ⟩ fun r => ∀ c : Dev nD,
      r.2.mem ((c.tc : Thread nD τ).loc main_v14)
        = Cert.Nf4.out Cert.Nf4.pick (m ((c.tc : Thread nD τ).loc main_arg0)) (m ((c.tc : Thread nD τ).loc main_arg1))
            (scale (m ((c.tc : Thread nD τ).loc main_arg2)) (m ((c.tc : Thread nD τ).loc main_arg3))
              (m ((c.tc : Thread nD τ).loc main_arg4)))
            (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v14 (Pipeline.mem_restRefs_of main_v14 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.KValue

end
-- ==== Proof.RefValue.lean ====
/-
  The reference's run, read as one array.

  The reference computes the scales, turns every code into an index of the table of sixteen levels (16 is added to a
  negative code; the table lookup clamps the index into 0 … 15), regroups the levels in runs of 64 to multiply each run by
  its scale, multiplies the rows of `x` by the rows of the weights, and adds the bias. Read at `(b, s, o)` the composed
  term is `Σ_i x b s i · (look (code o i) · scale o (i / 64)) + bias o`: the two regroupings send `(o, i)` to
  `(o, i / 64, i % 64)` and back, the broadcasts keep the coordinates they name, the product contracts the last axis of
  `x` with the second axis of the weights, and the table read at a wrapped, clamped code is `Cert.Nf4.look`.
-/
import proofs.«422531_j81406810128701_1_alg».proof.Proof.Gen.ReferenceIdeal
import proofs.«422531_j81406810128701_1_alg».proof.Proof.Spec
import Idealize.ShloMosaic.Lib.StableHlo.Run
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Idealize.ShloMosaic Idealize.ShloMosaic.TcCoe Idealize.SL.Sem
open Idealize.ShloMosaic.StableHlo Idealize.ShloMosaic.ValueIdx

/-- The scale array: operations %0 … %10 composed (the codes of the scales converted, divided by 255, regrouped in
    runs of 256, multiplied by the per-run factor, shifted by the offset, regrouped as [4096, 64]). -/
def scale (amc : IVec S262144 32) (sc : FVec Ideal S1024 .f32) (off : FVec Ideal S1 .f32) : FVec Ideal S4096x64 .f32 :=
  shapeCast S4096x64
    (addf
      (mulf
        (shapeCast S1024x256
          (Host.divf (F := Ideal) (sitofp (F := Ideal) .f32 amc)
            (broadcastInDim S262144 ![] bcast_S_S262144 (constant (F := Ideal) S_ .f32 0x437F0000#32)))
          shapeCasts_S262144_S1024x256)
        (broadcastInDim S1024x256 ![0, 1] bcast_S1024x1_S1024x256_0_1
          (broadcastInDim S1024x1 ![0] bcast_S1024_S1024x1_0 sc)))
      (broadcastInDim S1024x256 ![] bcast_S_S1024x256 (shapeCast S_ off shapeCasts_S1_S_)))
    shapeCasts_S1024x256_S4096x64

/-- The codes as array indices: operations %11 … %15 composed (16 is added to a negative code). -/
def wrapped (codes : IVec S4096x4096 32) : IVec S4096x4096 32 :=
  select (cmpi .slt codes (broadcastInDim S4096x4096 ![] bcast_S_S4096x4096 (constantI S_ 32 0#32)))
    (addi codes (broadcastInDim S4096x4096 ![] bcast_S_S4096x4096 (constantI S_ 32 16#32)))
    codes

/-- The table of the sixteen levels: the constant %cst. -/
def table : FVec Ideal S16 .f32 := fun i => FloatOps.ofBits .f32 (lit0 (S16.rowMajor i))

/-- The level of every code: operations %16 and %17 composed over the wrapped codes (the table read at each). -/
def levels (codes : IVec S4096x4096 32) : FVec Ideal S4096x4096 .f32 :=
  Host.gather gather_S16_S4096x4096x1_S4096x4096_n_0_n_n_0_2_1 table
    (broadcastInDim S4096x4096x1 ![0, 1] bcast_S4096x4096_S4096x4096x1_0_1 (wrapped codes))

/-- The dequantised weights: operations %18 … %22 composed (the levels regrouped in runs of 64, each run multiplied
    by its scale, regrouped as a matrix). -/
def weights (codes : IVec S4096x4096 32) (sc : FVec Ideal S4096x64 .f32) : FVec Ideal S4096x4096 .f32 :=
  shapeCast S4096x4096
    (mulf (shapeCast S4096x64x64 (levels codes) shapeCasts_S4096x4096_S4096x64x64)
      (broadcastInDim S4096x64x64 ![0, 1, 2] bcast_S4096x64x1_S4096x64x64_0_1_2
        (broadcastInDim S4096x64x1 ![0, 1] bcast_S4096x64_S4096x64x1_0_1 sc)))
    shapeCasts_S4096x64x64_S4096x4096

/-- The result: operations %23 … %26 composed (the rows of `x` against the rows of the weights, plus the bias). -/
def result (x : FVec Ideal S4x2048x4096 .f32) (codes : IVec S4096x4096 32) (sc : FVec Ideal S4096x64 .f32)
    (bias : FVec Ideal S4096 .f32) : FVec Ideal S4x2048x4096 .f32 :=
  addf (Host.dotGeneral (F := Ideal) dot_S4x2048x4096_S4096x4096_S4x2048x4096_2_1_01_0_n_n none x (weights codes sc))
    (broadcastInDim S4x2048x4096 ![0, 1, 2] bcast_S1x1x4096_S4x2048x4096_0_1_2
      (broadcastInDim S1x1x4096 ![2] bcast_S4096_S1x1x4096_2 bias))

/-! ## The composed term read at an index -/

section AtIndex

variable (x : FVec Ideal S4x2048x4096 .f32) (codes : IVec S4096x4096 32) (sc : FVec Ideal S4096x64 .f32)
  (bias : FVec Ideal S4096 .f32)

/-- The program's table of words is the specification's. -/
theorem lit0_eq_level : lit0 = Cert.Nf4.level := by
  funext k
  fin_cases k <;> rfl

/-- The table's entry `k` is the level `k`. -/
theorem table_apply (k : Fin 16) : table (ix1 k) = Ideal.ofBits .f32 (Cert.Nf4.level k) := by
  have hk : S16.rowMajor (ix1 k) = k := Fin.ext (Shape.rowMajor_val_one _)
  show Ideal.ofBits .f32 (lit0 (S16.rowMajor (ix1 k))) = _
  rw [hk, lit0_eq_level]

/-- A wrapped code is the code with 16 added when it is negative. -/
theorem wrapped_apply (y : S4096x4096.Idx) : wrapped codes y = Cert.Nf4.wrap (codes y) := rfl

/-- The level array at an index is the table read at the code there, wrapped and clamped. -/
theorem levels_apply (y : S4096x4096.Idx) : levels codes y = Cert.Nf4.look (codes y) := by
  unfold levels
  show Host.gather (takeDims 16 4096 4096 gather_S16_S4096x4096x1_S4096x4096_n_0_n_n_0_2_1_wf) _ _ y = _
  rw [gather_take_apply (by decide)]
  have hidx : broadcastInDim S4096x4096x1 ![0, 1] bcast_S4096x4096_S4096x4096x1_0_1 (wrapped codes) (takeIdx y)
      = Cert.Nf4.wrap (codes y) :=
    broadcastInDim_apply (![0, 1]) bcast_S4096x4096_S4096x4096x1_0_1 _ (takeIdx y) y (by
      intro a
      match a with
      | ⟨0, _⟩ => rfl
      | ⟨1, _⟩ => rfl)
  refine Eq.trans (congrArg (fun q : Fin 16 => table (ix1 q)) (Fin.ext ?_)) (table_apply (Cert.Nf4.entry (Cert.Nf4.wrap (codes y))))
  exact congrArg (fun w : BitVec 32 => min w.toInt.toNat (16 - 1)) hidx

end AtIndex

section Layout

variable {α : Type}

/-- A matrix regrouped in runs of 64 along its rows: entry `(o, g, r)` is entry `(o, 64 g + r)`. -/
theorem runs_apply (v : S4096x4096.Idx → α) (o : Fin 4096) (g r : Fin 64) :
    shapeCast S4096x64x64 v shapeCasts_S4096x4096_S4096x64x64 (ix3 o g r)
      = v (ix2 o ⟨g.val * 64 + r.val, by omega⟩) :=
  shapeCast_apply v shapeCasts_S4096x4096_S4096x64x64 (ix3 o g r) (ix2 o ⟨g.val * 64 + r.val, by omega⟩) (by
    rw [Shape.rowMajor_val_two, Shape.rowMajor_val_three]
    show o.val * 4096 + (g.val * 64 + r.val) = (o.val * 64 + g.val) * 64 + r.val
    omega)

/-- The runs of 64 put back in a row: entry `(o, i)` is entry `(o, i / 64, i % 64)`. -/
theorem rows_apply (v : S4096x64x64.Idx → α) (o i : Fin 4096) :
    shapeCast S4096x4096 v shapeCasts_S4096x64x64_S4096x4096 (ix2 o i)
      = v (ix3 o ⟨i.val / 64, by omega⟩ ⟨i.val % 64, by omega⟩) :=
  shapeCast_apply v shapeCasts_S4096x64x64_S4096x4096 (ix2 o i) (ix3 o ⟨i.val / 64, by omega⟩ ⟨i.val % 64, by omega⟩) (by
    rw [Shape.rowMajor_val_two, Shape.rowMajor_val_three]
    show (o.val * 64 + i.val / 64) * 64 + i.val % 64 = o.val * 4096 + i.val
    omega)

/-- One scale per run, repeated along the run: entry `(o, g, r)` is the scale `(o, g)`. -/
theorem along_run_apply (v : S4096x64.Idx → α) (o : Fin 4096) (g r : Fin 64) :
    broadcastInDim S4096x64x64 ![0, 1, 2] bcast_S4096x64x1_S4096x64x64_0_1_2
        (broadcastInDim S4096x64x1 ![0, 1] bcast_S4096x64_S4096x64x1_0_1 v) (ix3 o g r)
      = v (ix2 o g) := by
  rw [broadcastInDim_apply (![0, 1, 2]) bcast_S4096x64x1_S4096x64x64_0_1_2 _ (ix3 o g r) (ix3 o g (0 : Fin 1)) (by
    intro a
    match a with
    | ⟨0, _⟩ => rfl
    | ⟨1, _⟩ => rfl
    | ⟨2, _⟩ => rfl)]
  exact broadcastInDim_apply (![0, 1]) bcast_S4096x64_S4096x64x1_0_1 v (ix3 o g (0 : Fin 1)) (ix2 o g) (by
    intro a
    match a with
    | ⟨0, _⟩ => rfl
    | ⟨1, _⟩ => rfl)

/-- A vector repeated over the two leading axes: entry `(b, s, o)` is entry `o`. -/
theorem over_rows_apply (v : S4096.Idx → α) (b : Fin 4) (s : Fin 2048) (o : Fin 4096) :
    broadcastInDim S4x2048x4096 ![0, 1, 2] bcast_S1x1x4096_S4x2048x4096_0_1_2
        (broadcastInDim S1x1x4096 ![2] bcast_S4096_S1x1x4096_2 v) (ix3 b s o)
      = v (ix1 o) := by
  rw [broadcastInDim_apply (![0, 1, 2]) bcast_S1x1x4096_S4x2048x4096_0_1_2 _ (ix3 b s o) (ix3 (0 : Fin 1) (0 : Fin 1) o) (by
    intro a
    match a with
    | ⟨0, _⟩ => rfl
    | ⟨1, _⟩ => rfl
    | ⟨2, _⟩ => rfl)]
  exact broadcastInDim_apply (![2]) bcast_S4096_S1x1x4096_2 v (ix3 (0 : Fin 1) (0 : Fin 1) o) (ix1 o) (by
    intro a
    match a with
    | ⟨0, _⟩ => rfl)

end Layout

section Weights

variable (codes : IVec S4096x4096 32) (sc : FVec Ideal S4096x64 .f32)

/-- The weight at `(o, i)`: the level of the code there times the scale of the run of 64 that holds `i`. -/
theorem weights_apply (o i : Fin 4096) : weights codes sc (ix2 o i) = Cert.Nf4.weight Cert.Nf4.look codes sc o i := by
  unfold weights
  rw [rows_apply, mulf_apply, runs_apply, along_run_apply, levels_apply]
  have hi : (⟨(⟨i.val / 64, by omega⟩ : Fin 64).val * 64 + (⟨i.val % 64, by omega⟩ : Fin 64).val, by omega⟩ : Fin 4096) = i :=
    Fin.ext (by show i.val / 64 * 64 + i.val % 64 = i.val; omega)
  rw [hi]
  rfl

end Weights

section Contraction

/-- The contraction's one axis has 4096 positions. -/
def contrFin : dot_S4x2048x4096_S4096x4096_S4x2048x4096_2_1_01_0_n_n.contr.Idx ≃ Fin 4096 :=
  contrEquiv1 dot_S4x2048x4096_S4096x4096_S4x2048x4096_2_1_01_0_n_n 4096 rfl rfl

/-- The left operand's index at result index `j`: its first two coordinates are `j`'s. -/
theorem lhs_axis0 (j : S4x2048x4096.Idx) (k : dot_S4x2048x4096_S4096x4096_S4x2048x4096_2_1_01_0_n_n.contr.Idx) :
    (dot_S4x2048x4096_S4096x4096_S4x2048x4096_2_1_01_0_n_n.lhsIdx j k 0).val = (j 0).val := rfl
theorem lhs_axis1 (j : S4x2048x4096.Idx) (k : dot_S4x2048x4096_S4096x4096_S4x2048x4096_2_1_01_0_n_n.contr.Idx) :
    (dot_S4x2048x4096_S4096x4096_S4x2048x4096_2_1_01_0_n_n.lhsIdx j k 1).val = (j 1).val := rfl
/-- Its third is the contraction position. -/
theorem lhs_axis2 (j : S4x2048x4096.Idx) (i : Fin 4096) :
    (dot_S4x2048x4096_S4096x4096_S4x2048x4096_2_1_01_0_n_n.lhsIdx j (contrFin.symm i) 2).val = i.val :=
  (dot_S4x2048x4096_S4096x4096_S4x2048x4096_2_1_01_0_n_n.lhsIdx_val_of_single rfl j (contrFin.symm i)).trans
    (contrEquiv1_symm_val dot_S4x2048x4096_S4096x4096_S4x2048x4096_2_1_01_0_n_n 4096 rfl rfl i)
/-- The right operand's index: its first coordinate is `j`'s last … -/
theorem rhs_axis0 (j : S4x2048x4096.Idx) (k : dot_S4x2048x4096_S4096x4096_S4x2048x4096_2_1_01_0_n_n.contr.Idx) :
    (dot_S4x2048x4096_S4096x4096_S4x2048x4096_2_1_01_0_n_n.rhsIdx j k 0).val = (j 2).val := rfl
/-- … and its second the contraction position. -/
theorem rhs_axis1 (j : S4x2048x4096.Idx) (i : Fin 4096) :
    (dot_S4x2048x4096_S4096x4096_S4x2048x4096_2_1_01_0_n_n.rhsIdx j (contrFin.symm i) 1).val = i.val :=
  (dot_S4x2048x4096_S4096x4096_S4x2048x4096_2_1_01_0_n_n.rhsIdx_val_of_single rfl j (contrFin.symm i)).trans
    (contrEquiv1_symm_val dot_S4x2048x4096_S4096x4096_S4x2048x4096_2_1_01_0_n_n 4096 rfl rfl i)

theorem lhs_at (b : Fin 4) (s : Fin 2048) (o i : Fin 4096) :
    dot_S4x2048x4096_S4096x4096_S4x2048x4096_2_1_01_0_n_n.lhsIdx (ix3 b s o) (contrFin.symm i) = ix3 b s i := by
  funext a
  apply Fin.ext
  match a with
  | ⟨0, _⟩ => exact lhs_axis0 _ _
  | ⟨1, _⟩ => exact lhs_axis1 _ _
  | ⟨2, _⟩ => exact lhs_axis2 _ _

theorem rhs_at (b : Fin 4) (s : Fin 2048) (o i : Fin 4096) :
    dot_S4x2048x4096_S4096x4096_S4x2048x4096_2_1_01_0_n_n.rhsIdx (ix3 b s o) (contrFin.symm i) = ix2 o i := by
  funext a
  apply Fin.ext
  match a with
  | ⟨0, _⟩ => exact rhs_axis0 _ _
  | ⟨1, _⟩ => exact rhs_axis1 _ _

/-- The product read at `(b, s, o)`: row `(b, s)` of the left operand against row `o` of the right one. -/
theorem product_apply (x : FVec Ideal S4x2048x4096 .f32) (w : FVec Ideal S4096x4096 .f32) (b : Fin 4) (s : Fin 2048) (o : Fin 4096) :
    Host.dotGeneral (F := Ideal) dot_S4x2048x4096_S4096x4096_S4x2048x4096_2_1_01_0_n_n none x w (ix3 b s o)
      = ∑ i : Fin 4096, x (ix3 b s i) * w (ix2 o i) := by
  simp only [Host.dotGeneral]
  rw [Ideal.dotGeneral_apply, ← Equiv.sum_comp contrFin.symm]
  refine Finset.sum_congr rfl fun i _ => ?_
  rw [lhs_at, rhs_at]

end Contraction

/-- The composed term read at `(b, s, o)` is the specification's entry there. -/
theorem result_apply (x : FVec Ideal S4x2048x4096 .f32) (codes : IVec S4096x4096 32) (sc : FVec Ideal S4096x64 .f32)
    (bias : FVec Ideal S4096 .f32) (b : Fin 4) (s : Fin 2048) (o : Fin 4096) :
    result x codes sc bias (ix3 b s o) = Cert.Nf4.outAt Cert.Nf4.look x codes sc bias b s o := by
  unfold result Cert.Nf4.outAt
  rw [addf_apply, product_apply, over_rows_apply]
  refine congrArg (· + bias (ix1 o)) (Finset.sum_congr rfl fun i _ => ?_)
  rw [weights_apply]

/-- The composed term is the specification's array. -/
theorem result_eq (x : FVec Ideal S4x2048x4096 .f32) (codes : IVec S4096x4096 32) (sc : FVec Ideal S4096x64 .f32)
    (bias : FVec Ideal S4096 .f32) : result x codes sc bias = Cert.Nf4.out Cert.Nf4.look x codes sc bias := by
  funext j
  obtain ⟨b, s, o, rfl⟩ : ∃ (b : Fin 4) (s : Fin 2048) (o : Fin 4096), j = ix3 b s o := ⟨j 0, j 1, j 2, eq_ix3 j⟩
  exact result_apply x codes sc bias b s o

/-! ## The run -/

section Run

variable {F : FTy → Type} [FloatOps F]

/-- @main's 31 operations, in order. -/
abbrev ops : List (HloOp τ sig (Elt F)) :=
  [ nullary main_cst (fun i => FloatOps.ofBits .f32 (lit0 (S16.rowMajor i))),
    unary main_arg2 main_v0 (sitofp .f32 : (⟨S262144, .i32⟩ : BufTy).Contents (Elt F) → (⟨S262144, .f32⟩ : BufTy).Contents (Elt F)),
    nullary main_cst_0 (constant S_ .f32 0x437F0000#32),
    unary main_cst_0 main_v1 (broadcastInDim S262144 ![] bcast_S_S262144 : (⟨S_, .f32⟩ : BufTy).Contents (Elt F) → (⟨S262144, .f32⟩ : BufTy).Contents (Elt F)),
    binary main_v0 main_v1 main_v2 (Host.divf : (⟨S262144, .f32⟩ : BufTy).Contents (Elt F) → (⟨S262144, .f32⟩ : BufTy).Contents (Elt F) → (⟨S262144, .f32⟩ : BufTy).Contents (Elt F)),
    reshape main_v2 main_v3 rfl shapeCasts_S262144_S1024x256,
    unary main_arg3 main_v4 (broadcastInDim S1024x1 ![0] bcast_S1024_S1024x1_0 : (⟨S1024, .f32⟩ : BufTy).Contents (Elt F) → (⟨S1024x1, .f32⟩ : BufTy).Contents (Elt F)),
    unary main_v4 main_v5 (broadcastInDim S1024x256 ![0, 1] bcast_S1024x1_S1024x256_0_1 : (⟨S1024x1, .f32⟩ : BufTy).Contents (Elt F) → (⟨S1024x256, .f32⟩ : BufTy).Contents (Elt F)),
    binary main_v3 main_v5 main_v6 (mulf : (⟨S1024x256, .f32⟩ : BufTy).Contents (Elt F) → (⟨S1024x256, .f32⟩ : BufTy).Contents (Elt F) → (⟨S1024x256, .f32⟩ : BufTy).Contents (Elt F)),
    reshape main_arg4 main_v7 rfl shapeCasts_S1_S_,
    unary main_v7 main_v8 (broadcastInDim S1024x256 ![] bcast_S_S1024x256 : (⟨S_, .f32⟩ : BufTy).Contents (Elt F) → (⟨S1024x256, .f32⟩ : BufTy).Contents (Elt F)),
    binary main_v6 main_v8 main_v9 (addf : (⟨S1024x256, .f32⟩ : BufTy).Contents (Elt F) → (⟨S1024x256, .f32⟩ : BufTy).Contents (Elt F) → (⟨S1024x256, .f32⟩ : BufTy).Contents (Elt F)),
    reshape main_v9 main_v10 rfl shapeCasts_S1024x256_S4096x64,
    nullary main_c (constantI S_ 32 0#32),
    unary main_c main_v11 (broadcastInDim S4096x4096 ![] bcast_S_S4096x4096 : (⟨S_, .i32⟩ : BufTy).Contents (Elt F) → (⟨S4096x4096, .i32⟩ : BufTy).Contents (Elt F)),
    binary main_arg1 main_v11 main_v12 (cmpi .slt : (⟨S4096x4096, .i32⟩ : BufTy).Contents (Elt F) → (⟨S4096x4096, .i32⟩ : BufTy).Contents (Elt F) → (⟨S4096x4096, .i1⟩ : BufTy).Contents (Elt F)),
    nullary main_c_1 (constantI S_ 32 16#32),
    unary main_c_1 main_v13 (broadcastInDim S4096x4096 ![] bcast_S_S4096x4096 : (⟨S_, .i32⟩ : BufTy).Contents (Elt F) → (⟨S4096x4096, .i32⟩ : BufTy).Contents (Elt F)),
    binary main_arg1 main_v13 main_v14 (addi : (⟨S4096x4096, .i32⟩ : BufTy).Contents (Elt F) → (⟨S4096x4096, .i32⟩ : BufTy).Contents (Elt F) → (⟨S4096x4096, .i32⟩ : BufTy).Contents (Elt F)),
    ternary main_v12 main_v14 main_arg1 main_v15 (select : (⟨S4096x4096, .i1⟩ : BufTy).Contents (Elt F) → (⟨S4096x4096, .i32⟩ : BufTy).Contents (Elt F) → (⟨S4096x4096, .i32⟩ : BufTy).Contents (Elt F) → (⟨S4096x4096, .i32⟩ : BufTy).Contents (Elt F)),
    unary main_v15 main_v16 (broadcastInDim S4096x4096x1 ![0, 1] bcast_S4096x4096_S4096x4096x1_0_1 : (⟨S4096x4096, .i32⟩ : BufTy).Contents (Elt F) → (⟨S4096x4096x1, .i32⟩ : BufTy).Contents (Elt F)),
    binary main_cst main_v16 main_v17 ((fun x i => Host.gather gather_S16_S4096x4096x1_S4096x4096_n_0_n_n_0_2_1 x i) : (⟨S16, .f32⟩ : BufTy).Contents (Elt F) → (⟨S4096x4096x1, .i32⟩ : BufTy).Contents (Elt F) → (⟨S4096x4096, .f32⟩ : BufTy).Contents (Elt F)),
    reshape main_v17 main_v18 rfl shapeCasts_S4096x4096_S4096x64x64,
    unary main_v10 main_v19 (broadcastInDim S4096x64x1 ![0, 1] bcast_S4096x64_S4096x64x1_0_1 : (⟨S4096x64, .f32⟩ : BufTy).Contents (Elt F) → (⟨S4096x64x1, .f32⟩ : BufTy).Contents (Elt F)),
    unary main_v19 main_v20 (broadcastInDim S4096x64x64 ![0, 1, 2] bcast_S4096x64x1_S4096x64x64_0_1_2 : (⟨S4096x64x1, .f32⟩ : BufTy).Contents (Elt F) → (⟨S4096x64x64, .f32⟩ : BufTy).Contents (Elt F)),
    binary main_v18 main_v20 main_v21 (mulf : (⟨S4096x64x64, .f32⟩ : BufTy).Contents (Elt F) → (⟨S4096x64x64, .f32⟩ : BufTy).Contents (Elt F) → (⟨S4096x64x64, .f32⟩ : BufTy).Contents (Elt F)),
    reshape main_v21 main_v22 rfl shapeCasts_S4096x64x64_S4096x4096,
    binary main_arg0 main_v22 main_v23 ((fun l r => Host.dotGeneral dot_S4x2048x4096_S4096x4096_S4x2048x4096_2_1_01_0_n_n none l r) : (⟨S4x2048x4096, .f32⟩ : BufTy).Contents (Elt F) → (⟨S4096x4096, .f32⟩ : BufTy).Contents (Elt F) → (⟨S4x2048x4096, .f32⟩ : BufTy).Contents (Elt F)),
    unary main_arg5 main_v24 (broadcastInDim S1x1x4096 ![2] bcast_S4096_S1x1x4096_2 : (⟨S4096, .f32⟩ : BufTy).Contents (Elt F) → (⟨S1x1x4096, .f32⟩ : BufTy).Contents (Elt F)),
    unary main_v24 main_v25 (broadcastInDim S4x2048x4096 ![0, 1, 2] bcast_S1x1x4096_S4x2048x4096_0_1_2 : (⟨S1x1x4096, .f32⟩ : BufTy).Contents (Elt F) → (⟨S4x2048x4096, .f32⟩ : BufTy).Contents (Elt F)),
    binary main_v23 main_v25 main_v26 (addf : (⟨S4x2048x4096, .f32⟩ : BufTy).Contents (Elt F) → (⟨S4x2048x4096, .f32⟩ : BufTy).Contents (Elt F) → (⟨S4x2048x4096, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., unary_bufs_sub .., nullary_bufs_sub .., unary_bufs_sub .., binary_bufs_sub .., reshape_bufs_sub ..,
   unary_bufs_sub .., unary_bufs_sub .., binary_bufs_sub .., reshape_bufs_sub .., unary_bufs_sub .., binary_bufs_sub ..,
   reshape_bufs_sub .., nullary_bufs_sub .., unary_bufs_sub .., binary_bufs_sub .., nullary_bufs_sub .., unary_bufs_sub ..,
   binary_bufs_sub .., ternary_bufs_sub .., unary_bufs_sub .., binary_bufs_sub .., reshape_bufs_sub .., unary_bufs_sub ..,
   unary_bufs_sub .., binary_bufs_sub .., reshape_bufs_sub .., binary_bufs_sub .., unary_bufs_sub .., unary_bufs_sub ..,
   binary_bufs_sub ..⟩

/-- Every run of @main ends with the result buffer at the operations' composed term of the arguments' launch
    contents, and the arguments unchanged. -/
theorem run_composed (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v26)
        = result (m ((c.tc : Thread nD τ).loc main_arg0)) (m ((c.tc : Thread nD τ).loc main_arg1))
            (scale (m ((c.tc : Thread nD τ).loc main_arg2)) (m ((c.tc : Thread nD τ).loc main_arg3)) (m ((c.tc : Thread nD τ).loc main_arg4)))
            (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v26).trans (by after_results_simp; try rfl),
      (h c main_arg0).trans (by after_results_simp),
      (h c main_arg1).trans (by after_results_simp),
      (h c main_arg2).trans (by after_results_simp),
      (h c main_arg3).trans (by after_results_simp),
      (h c main_arg4).trans (by after_results_simp),
      (h c main_arg5).trans (by after_results_simp)⟩)
    (run_seq scopedRefs_eq scopedSems_eq defs main (fun _ => ops) main_eq (fun _ => ops_sub) m ρ)

end Run

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v26)
        = Cert.Nf4.out Cert.Nf4.look (m ((c.tc : Thread nD τ).loc main_arg0)) (m ((c.tc : Thread nD τ).loc main_arg1))
            (scale (m ((c.tc : Thread nD τ).loc main_arg2)) (m ((c.tc : Thread nD τ).loc main_arg3)) (m ((c.tc : Thread nD τ).loc main_arg4)))
            (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ?_) (run_composed m ρ)
  obtain ⟨h26, hargs⟩ := h c
  exact ⟨h26.trans (result_eq _ _ _ _), hargs⟩

end Cert.ReferenceIdeal.RefValue

end
-- ==== Proof.PreCodes.lean ====
/-
  What the precondition says of the codes.

  The precondition is a conjunction of six "every entry satisfies …" tests reduced to one bit. The last two say that every
  code is at least 0 and that every code is below 16, as signed 32-bit numbers. If the conjunction is 1, each test is 1, and
  a test that reduces by "and" to 1 had a 1 at every entry.
-/
import proofs.«422531_j81406810128701_1_alg».proof.Proof.Gen.Pre_finite_inputs
import Idealize.ShloMosaic.Lib.ReduceAll
import Idealize.ShloMosaic.Lib.ValueIdx
import Idealize.ShloMosaic.Lib.Affine

noncomputable section

namespace Cert.Pre_finite_inputs.Codes

open Cert.Pre_finite_inputs Cert.Pre_finite_inputs.Gen Idealize.ShloMosaic Idealize.ShloMosaic.ValueIdx

instance : Subsingleton S_.Idx := ⟨fun a b => funext fun d => d.elim0⟩

variable {F : FTy → Type} [FloatOps F]

/-- If the precondition holds of the arrays, every code is at least 0 and below 16 as a signed word. -/
theorem in_range (a0 : FVec F S4x2048x4096 .f32) (a1 : IVec S4096x4096 32) (a2 : IVec S262144 32)
    (a3 : FVec F S1024 .f32) (a4 : FVec F S1 .f32) (a5 : FVec F S4096 .f32)
    (h : fn (F := F) a0 a1 a2 a3 a4 a5 = fun _ => 1#1) (y : S4096x4096.Idx) :
    IntOp.cmpi .sge (a1 y) 0#32 = 1#1 ∧ IntOp.cmpi .slt (a1 y) 16#32 = 1#1 := by
  have h0 := congrFun h ix0
  dsimp only [fn, fn_part1] at h0
  obtain ⟨h22, h25⟩ := IntOp.andi_eq_one.1 h0
  obtain ⟨-, h21⟩ := IntOp.andi_eq_one.1 h22
  exact ⟨Host.reduce_andi_all _ _ _ _ _ h21 y, Host.reduce_andi_all _ _ _ _ _ h25 y⟩

end Cert.Pre_finite_inputs.Codes

end
-- ==== Proof.lean ====
/-
  A matrix product with four-bit normal-float weights: the kernel and its reference compute the same array over the
  extended reals, for codes in 0 … 15.

  The weights are stored as one code per entry and one scale per run of 64 entries of a row; a weight is the level of its
  code (one of sixteen fixed numbers) times its scale, and the result is `out b s o = Σ_i x b s i · W o i + bias o`
  (Proof/Spec.lean). The kernel computes it block by block on a 32 × 16 grid, reading a code's level by fifteen equality
  tests (Proof/KPay.lean: one block's entry; Proof/KBlocks.lean: the 512 blocks tile the result; Proof/KRun.lean: the
  regroupings around the region and the run). The reference indexes a table of the sixteen levels, a negative index
  counting from the end and the index clamped into the table (Proof/RefValue.lean: its run and its result entry by
  entry). On a code in 0 … 15 the two readings of a level agree, and the precondition says every code is in that range
  (Proof/PreCodes.lean); outside it they differ (the code −1 is the level of 0 for the kernel and of 15 for the
  reference), so the range is needed. The scales are computed by the same operations in both programs. No law of the
  extended reals beyond the equality of the summands is used: both sums run over the same 4096 columns in one order.

  The three frames: the kernel's two are the generated frame certificates; the reference has no kernel, and its frame
  is its run with the result dropped. The idealisation rewrote nothing, so `preserves` is `True`.
-/
import proofs.«422531_j81406810128701_1_alg».proof.Defs
import proofs.«422531_j81406810128701_1_alg».proof.Proof.Gen.Kernel
import proofs.«422531_j81406810128701_1_alg».proof.Proof.Gen.Kernel.Skeleton
import proofs.«422531_j81406810128701_1_alg».proof.Proof.Gen.Kernel.Launch
import proofs.«422531_j81406810128701_1_alg».proof.Proof.Gen.Kernel.Points
import proofs.«422531_j81406810128701_1_alg».proof.Proof.Gen.Kernel.Frame
import proofs.«422531_j81406810128701_1_alg».proof.Proof.Gen.KernelIdeal
import proofs.«422531_j81406810128701_1_alg».proof.Proof.Gen.KernelIdeal.Skeleton
import proofs.«422531_j81406810128701_1_alg».proof.Proof.Gen.KernelIdeal.Launch
import proofs.«422531_j81406810128701_1_alg».proof.Proof.Gen.KernelIdeal.Points
import proofs.«422531_j81406810128701_1_alg».proof.Proof.Gen.KernelIdeal.Frame
import proofs.«422531_j81406810128701_1_alg».proof.Proof.Gen.ReferenceIdeal
import proofs.«422531_j81406810128701_1_alg».proof.Proof.Gen.Pre_finite_inputs
import proofs.«422531_j81406810128701_1_alg».proof.Proof.Spec
import proofs.«422531_j81406810128701_1_alg».proof.Proof.KRun
import proofs.«422531_j81406810128701_1_alg».proof.Proof.RefValue
import proofs.«422531_j81406810128701_1_alg».proof.Proof.PreCodes
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.RefValue.run m ρ)

theorem preserves : Cert.preserves_Kernel_KernelIdeal := trivial

/-- The two programs compute the scales by the same operations. -/
theorem scale_eq (amc : IVec Cert.KernelIdeal.S262144 32) (sc : FVec Ideal Cert.KernelIdeal.S1024 .f32)
    (off : FVec Ideal Cert.KernelIdeal.S1 .f32) :
    Cert.ReferenceIdeal.RefValue.scale amc sc off = Cert.KernelIdeal.KValue.scale amc sc off := rfl

/-- Both programs end at the specification's array, the kernel reading a level by its tests and the reference by its
    table; the precondition puts every code in 0 … 15, where the two readings agree. -/
theorem algebraic : Cert.algebraic_KernelIdeal_ReferenceIdeal := by
  intro m ρ m' ρ' hpre hagree
  refine ⟨_, Cert.KernelIdeal.KValue.run m ρ, ?_⟩
  refine (θ_run Cert.ReferenceIdeal.defs _ _).mono (fun _ h c => ⟨(h c).1.trans ?_, (h c).2⟩)
    (Cert.ReferenceIdeal.RefValue.run m' ρ')
  obtain ⟨a0, a1, a2, a3, a4, a5⟩ := hagree c
  rw [a0, a1, a2, a3, a4, a5, scale_eq]
  refine (Cert.Nf4.out_congr Cert.Nf4.pick Cert.Nf4.look _ _ _ _ fun o i => ?_).symm
  obtain ⟨h0, h1⟩ := Cert.Pre_finite_inputs.Codes.in_range _ _ _ _ _ _ (hpre c) (ix2 o i)
  exact Cert.Nf4.pick_eq_look _ h0 h1

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
